-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x32 : Shape := ⟨2, ![1600000, 32]⟩
abbrev S128x128 : Shape := ⟨2, ![128, 128]⟩
abbrev S128 : Shape := ⟨1, ![128]⟩
abbrev S160x128 : Shape := ⟨2, ![160, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S160x128 : S_.BroadcastsInDim S160x128 (![] : Fin 0 → Fin S160x128.rank)
  reducesTo_S160x128_S_d0_1 : S160x128.ReducesTo [0, 1] S_

variable [Facts]

def fn_part1 {F : FTy → Type} [FloatOps F] (main_arg5 : FVec F S160x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S160x128 .f32 := Host.absf main_arg5
  let main_cst_6 : FVec F S_ .f32 := constant S_ .f32 0x7F800000#32
  let main_v20 : FVec F S160x128 .f32 := broadcastInDim S160x128 ![] bcast_S_S160x128 main_cst_6
  let main_v21 : IVec S160x128 1 := cmpf .olt main_v19 main_v20
  let main_c_7 : IVec S_ 1 := constantI S_ 1 1#1
  let main_v22 : IVec S_ 1 := (fun x v => Host.reduce IntOp.andi x v reducesTo_S160x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000x32 .f32) (main_arg3 : FVec F S128x128 .f32) (main_arg4 : FVec F S128 .f32) (main_arg5 : FVec F S160x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000x32 : Shape := ⟨2, ![1600000, 32]⟩
abbrev S128x128 : Shape := ⟨2, ![128, 128]⟩
abbrev S128 : Shape := ⟨1, ![128]⟩
abbrev S160x128 : Shape := ⟨2, ![160, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S32x128 : Shape := ⟨2, ![32, 128]⟩
abbrev S1x128 : Shape := ⟨2, ![1, 128]⟩
abbrev S8000x128 : Shape := ⟨2, ![8000, 128]⟩
abbrev S8000x32 : Shape := ⟨2, ![8000, 32]⟩
abbrev S5000x128 : Shape := ⟨2, ![5000, 128]⟩

abbrev nBuf : Space → Nat
  | .hbm => 30
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x32, .f32⟩
  | .hbm, ⟨3, _⟩ => ⟨S128x128, .f32⟩
  | .hbm, ⟨4, _⟩ => ⟨S128, .f32⟩
  | .hbm, ⟨5, _⟩ => ⟨S160x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S128x128, .f32⟩
  | .hbm, ⟨21, _⟩ => ⟨S32x128, .f32⟩
  | .hbm, ⟨22, _⟩ => ⟨S1x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S1x128, .f32⟩
  | .hbm, ⟨29, _⟩ => ⟨S100000x128, .f32⟩
  | .local _ .vmem, ⟨0, _⟩ => ⟨S8000x128, .f32⟩
  | .local _ .vmem, ⟨1, _⟩ => ⟨S8000x128, .f32⟩
  | .local _ .vmem, ⟨2, _⟩ => ⟨S8000x32, .f32⟩
  | .local _ .vmem, ⟨3, _⟩ => ⟨S8000x32, .f32⟩
  | .local _ .vmem, ⟨4, _⟩ => ⟨S128x128, .f32⟩
  | .local _ .vmem, ⟨5, _⟩ => ⟨S32x128, .f32⟩
  | .local _ .vmem, ⟨6, _⟩ => ⟨S1x128, .f32⟩
  | .local _ .vmem, ⟨7, _⟩ => ⟨S8000x128, .f32⟩
  | .local _ .vmem, ⟨8, _⟩ => ⟨S8000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S160x128_S128x128_0_0 : S160x128.Slices ![0, 0] S128x128
  slices_S160x128_S32x128_128_0 : S160x128.Slices ![128, 0] S32x128
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S8000x32_S8000x32_0_0 : ∀ a, (![0, 0] : Fin 2 → Nat) a + S8000x32.size a ≤ S8000x32.size a
  h_S8000x32 : 0 < S8000x32.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  broadcasts_S1x128_S5000x128 : S1x128.Broadcasts S5000x128
  shapeCasts_S5000x128_S5000x128 : S5000x128.ShapeCasts S5000x128
  gather_S100000x128_S1600000x1_S1600000x128_1_0_n_n_0_1_1128_wf : GatherDims.WF S100000x128 S1600000x1 S1600000x128 [1] [0] [] [0] [] 1 ![1, 128]
  dot_S8000x128_S128x128_S8000x128_1_0_0_1_n_n_wf : DotDims.WF S8000x128 S128x128 S8000x128 [1] [0] [0] [1] [] []
  dot_S8000x32_S32x128_S8000x128_1_0_0_1_n_n_wf : DotDims.WF S8000x32 S32x128 S8000x128 [1] [0] [0] [1] [] []
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1600000x128.size a
  hwx0_0 : ∀ i : grid0.Coords, EltTy.bits .f32 = 32 ∨ (Rect.block (s := S1600000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x32.size a ≤ S1600000x32.size a
  hwx0_1 : ∀ i : grid0.Coords, EltTy.bits .f32 = 32 ∨ (Rect.block (s := S1600000x32) S8000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .f32 = 32 ∨ (Rect.block (s := S32x128) S32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x128.size a ≤ S1600000x128.size a
  hwx0_5 : ∀ i : grid0.Coords, EltTy.bits .f32 = 32 ∨ (Rect.block (s := S1600000x128) S8000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x32_S32x128_S8000x128_1_0_0_1_n_n : DotDims S8000x32 S32x128 S8000x128 where
  lhsContracting := [1]
  rhsContracting := [0]
  lhsNonContracting := [0]
  rhsNonContracting := [1]
  lhsBatch := []
  rhsBatch := []
  wf := dot_S8000x32_S32x128_S8000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v10) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S8000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x32 : Shape := ⟨2, ![1600000, 32]⟩
abbrev S128x128 : Shape := ⟨2, ![128, 128]⟩
abbrev S128 : Shape := ⟨1, ![128]⟩
abbrev S160x128 : Shape := ⟨2, ![160, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1600000x160 : Shape := ⟨2, ![1600000, 160]⟩
abbrev S1x128 : Shape := ⟨2, ![1, 128]⟩

abbrev nBuf : Space → Nat
  | .hbm => 37
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x32, .f32⟩
  | .hbm, ⟨3, _⟩ => ⟨S128x128, .f32⟩
  | .hbm, ⟨4, _⟩ => ⟨S128, .f32⟩
  | .hbm, ⟨5, _⟩ => ⟨S160x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S1600000x160, .f32⟩
  | .hbm, ⟨21, _⟩ => ⟨S1600000x128, .f32⟩
  | .hbm, ⟨22, _⟩ => ⟨S1x128, .f32⟩
  | .hbm, ⟨23, _⟩ => ⟨S1600000x128, .f32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000x128, .f32⟩
  | .hbm, ⟨36, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_cst : Ref sig .tc := ⟨.hbm, 34, rfl⟩
abbrev main_call0_v0 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x128_S1600000x32_S1600000x160_d1 : Shape.Concatenates [S1600000x128, S1600000x32] S1600000x160 1
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  dot_S1600000x160_S160x128_S1600000x128_1_0_0_1_n_n_wf : DotDims.WF S1600000x160 S160x128 S1600000x128 [1] [0] [0] [1] [] []
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S1600000x160_S160x128_S1600000x128_1_0_0_1_n_n : DotDims S1600000x160 S160x128 S1600000x128 where
  lhsContracting := [1]
  rhsContracting := [0]
  lhsNonContracting := [0]
  rhsNonContracting := [1]
  lhsBatch := []
  rhsBatch := []
  wf := dot_S1600000x160_S160x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.EdgeMessage.lean ====
import proofs.«106508_j35373350650219_1_alg».proof.Proof.Gen.KernelIdeal.Frame
import proofs.«106508_j35373350650219_1_alg».proof.Proof.LibPlainDot
import Idealize.ShloMosaic.Lib.Pipeline.Value
import Idealize.ShloMosaic.Lib.ValueIdx
import Idealize.ShloMosaic.PureOps.Ideal.Laws

/-!
  The edge-message region of the idealized kernel, read as a value. Its grid has 200 points; point t stages rows
  8000 t … 8000 t + 7999 of the gathered source features (width 128) and of the edge attributes (width 32), and the
  whole of the two weight pieces and of the bias row. At the ideal instance the narrowing casts are identities and a
  matrix product into a zero accumulator is the plain sum of products, so the block the body stores has at (p, q)
  the sum over k < 128 of h(p, k) · Wh(k, q), plus the sum over k < 32 of e(p, k) · We(k, q), plus b(0, q). The 200
  blocks tile the 1600000 rows, so the message array after the region is that function of the five staged arrays.
-/

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.EdgeMessage

open Cert.KernelIdeal Cert.KernelIdeal.Gen

theorem hz : (![0, 0] : Fin 2 → Nat) = fun _ => 0 := funext fun a => by fin_cases a <;> rfl

/-- One entry of the message array: row P of the gathered features against column Q of the first weight piece, plus
    row P of the edge attributes against column Q of the second weight piece, plus the bias entry Q. -/
def msgAt (h : S1600000x128.Idx → EReal) (e : S1600000x32.Idx → EReal) (wh : S128x128.Idx → EReal) (we : S32x128.Idx → EReal)
    (b : S1x128.Idx → EReal) (P : Fin 1600000) (Q : Fin 128) : EReal :=
  ((∑ k : Fin 128, h (ix2 P k) * wh (ix2 k Q)) + (∑ k : Fin 32, e (ix2 P k) * we (ix2 k Q))) + b (ix2 0 Q)

/-- The message array as one function of the five arrays the region's windows stage. -/
def msg (h : S1600000x128.Idx → EReal) (e : S1600000x32.Idx → EReal) (wh : S128x128.Idx → EReal) (we : S32x128.Idx → EReal)
    (b : S1x128.Idx → EReal) : S1600000x128.Idx → EReal := fun i => msgAt h e wh we b (i 0) (i 1)

/-- The body's stored value at entry (p, q) of a block. -/
theorem pay_apply (h : Vec Ideal S8000x128 .f32) (e : Vec Ideal S8000x32 .f32) (wh : Vec Ideal S128x128 .f32)
    (we : Vec Ideal S32x128 .f32) (b : Vec Ideal S1x128 .f32) (p : Fin 8000) (q : Fin 128) :
    k0_pay1 h e wh we b (ix2 p q)
      = ((∑ k : Fin 128, h (ix2 p k) * wh (ix2 k q)) + (∑ k : Fin 32, e (ix2 p k) * we (ix2 k q))) + b (ix2 0 q) := by
  unfold k0_pay1
  rw [addf_apply, addf_apply, shapeCast_self, shapeCast_self, shapeCast_self, shapeCast_self]
  have hh := Cert.Lib.PlainDot.matmul_zero_apply dot_S8000x128_S128x128_S8000x128_1_0_0_1_n_n rfl rfl rfl rfl rfl rfl none
    (truncf FTy.bf16 h bitsLt_bf16_f32 : FVec Ideal S8000x128 .bf16) (truncf FTy.bf16 wh bitsLt_bf16_f32 : FVec Ideal S128x128 .bf16) p q
  have he := Cert.Lib.PlainDot.matmul_zero_apply dot_S8000x32_S32x128_S8000x128_1_0_0_1_n_n rfl rfl rfl rfl rfl rfl none
    (truncf FTy.bf16 e bitsLt_bf16_f32 : FVec Ideal S8000x32 .bf16) (truncf FTy.bf16 we bitsLt_bf16_f32 : FVec Ideal S32x128 .bf16) p q
  have hb : broadcastTo S8000x128 b broadcasts_S1x128_S8000x128 (ix2 p q) = b (ix2 0 q) :=
    broadcastTo_apply b broadcasts_S1x128_S8000x128 (ix2 p q) (ix2 0 q) (fun a => match a with
      | ⟨0, _⟩ => by show 0 = if (1 : Nat) = 1 then 0 else _; rw [if_pos rfl]
      | ⟨1, _⟩ => by show q.val = if (128 : Nat) = 1 then 0 else q.val; rw [if_neg (by decide)])
  rw [hb]
  refine congrArg₂ (fun y z => (y + z) + b (ix2 0 q)) ?_ ?_
  · exact hh
  · exact he

variable (V : (c : Dev nD) → (b : Ref sig .tc) → Buf (Elt Ideal) ((c : Thread nD τ).loc b))

/-- The printed index maps over the grid of 200 points: the row windows sit at block t, the weights and the bias at
    block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row block t of the gathered features: entry y of the block is entry (8000 t + y₀, y₁) of the array. -/
theorem blk_h (c : Dev nD) (t : Fin cfg0.N) (y : S8000x128.Idx) (i : S1600000x128.Idx)
    (h0 : (i 0).val = 8000 * t.val + (y 0).val) (h1 : (i 1).val = (y 1).val) :
    (iblk0 V c 0 t : Vec Ideal S8000x128 .f32) y = (V c main_v10 : S1600000x128.Idx → EReal) i := by
  obtain ⟨e0, e1, -⟩ := idx_facts t
  unfold iblk0
  rw [View.read_apply]
  show V c main_v10 _ = V c main_v10 _
  congr 1
  funext a
  apply Fin.ext
  match a with
  | ⟨0, _⟩ => show win0_0.index t 0 * 8000 + 1 * (y 0).val = (i 0).val; rw [e0, h0]; omega
  | ⟨1, _⟩ => show win0_0.index t 1 * 128 + 1 * (y 1).val = (i 1).val; rw [e1, h1]; omega

/-- Row block t of the edge attributes: entry y of the block is entry (8000 t + y₀, y₁) of the array. -/
theorem blk_e (c : Dev nD) (t : Fin cfg0.N) (y : S8000x32.Idx) (i : S1600000x32.Idx)
    (h0 : (i 0).val = 8000 * t.val + (y 0).val) (h1 : (i 1).val = (y 1).val) :
    (iblk0 V c 1 t : Vec Ideal S8000x32 .f32) y = (V c main_arg2 : S1600000x32.Idx → EReal) i := by
  obtain ⟨-, -, e0, e1, -⟩ := idx_facts t
  unfold iblk0
  rw [View.read_apply]
  show V c main_arg2 _ = V c main_arg2 _
  congr 1
  funext a
  apply Fin.ext
  match a with
  | ⟨0, _⟩ => show win0_1.index t 0 * 8000 + 1 * (y 0).val = (i 0).val; rw [e0, h0]; omega
  | ⟨1, _⟩ => show win0_1.index t 1 * 32 + 1 * (y 1).val = (i 1).val; rw [e1, h1]; omega

/-- The first weight piece's one block is the whole piece. -/
theorem blk_wh (c : Dev nD) (t : Fin cfg0.N) (y : S128x128.Idx) :
    (iblk0 V c 2 t : Vec Ideal S128x128 .f32) y = (V c main_v11 : S128x128.Idx → EReal) y := by
  obtain ⟨-, -, -, -, e0, e1, -⟩ := idx_facts t
  unfold iblk0
  rw [View.read_apply]
  show V c main_v11 _ = V c main_v11 _
  congr 1
  funext a
  apply Fin.ext
  match a with
  | ⟨0, _⟩ => show win0_2.index t 0 * 128 + 1 * (y 0).val = (y 0).val; rw [e0]; omega
  | ⟨1, _⟩ => show win0_2.index t 1 * 128 + 1 * (y 1).val = (y 1).val; rw [e1]; omega

/-- The second weight piece's one block is the whole piece. -/
theorem blk_we (c : Dev nD) (t : Fin cfg0.N) (y : S32x128.Idx) :
    (iblk0 V c 3 t : Vec Ideal S32x128 .f32) y = (V c main_v12 : S32x128.Idx → EReal) y := by
  obtain ⟨-, -, -, -, -, -, e0, e1, -⟩ := idx_facts t
  unfold iblk0
  rw [View.read_apply]
  show V c main_v12 _ = V c main_v12 _
  congr 1
  funext a
  apply Fin.ext
  match a with
  | ⟨0, _⟩ => show win0_3.index t 0 * 32 + 1 * (y 0).val = (y 0).val; rw [e0]; omega
  | ⟨1, _⟩ => show win0_3.index t 1 * 128 + 1 * (y 1).val = (y 1).val; rw [e1]; omega

/-- The bias row's one block is the whole row. -/
theorem blk_b (c : Dev nD) (t : Fin cfg0.N) (y : S1x128.Idx) :
    (iblk0 V c 4 t : Vec Ideal S1x128 .f32) y = (V c main_v13 : S1x128.Idx → EReal) y := by
  obtain ⟨-, -, -, -, -, -, -, -, e0, e1, -⟩ := idx_facts t
  unfold iblk0
  rw [View.read_apply]
  show V c main_v13 _ = V c main_v13 _
  congr 1
  funext a
  apply Fin.ext
  match a with
  | ⟨0, _⟩ => show win0_4.index t 0 * 1 + 1 * (y 0).val = (y 0).val; rw [e0]; omega
  | ⟨1, _⟩ => show win0_4.index t 1 * 128 + 1 * (y 1).val = (y 1).val; rw [e1]; omega

/-- What point t stores at entry (p, q) of its block is the message array's entry (8000 t + p, q). -/
theorem stored_at (c : Dev nD) (t : Fin cfg0.N) (p : Fin 8000) (q : Fin 128) (P : Fin 1600000) (Q : Fin 128)
    (hP : P.val = 8000 * t.val + p.val) (hQ : Q.val = q.val) :
    k0_pay1 (iblk0 V c 0 t) (iblk0 V c 1 t) (iblk0 V c 2 t) (iblk0 V c 3 t) (iblk0 V c 4 t) (ix2 p q)
      = msgAt (V c main_v10) (V c main_arg2) (V c main_v11) (V c main_v12) (V c main_v13) P Q := by
  obtain rfl : Q = q := Fin.ext hQ
  refine (pay_apply _ _ _ _ _ p Q).trans ?_
  unfold msgAt
  rw [blk_b V c t (ix2 0 Q)]
  refine congrArg₂ (fun y z => (y + z) + _) ?_ ?_
  · refine Finset.sum_congr rfl fun k _ => ?_
    rw [blk_h V c t (ix2 p k) (ix2 P k) hP rfl, blk_wh V c t (ix2 k Q)]
  · refine Finset.sum_congr rfl fun k _ => ?_
    rw [blk_e V c t (ix2 p k) (ix2 P k) hP rfl, blk_we V c t (ix2 k Q)]

/-- WHAT POINT t WRITES BACK is block t of the message function of the five arrays as the region finds them. -/
theorem flushed_eq (c : Dev nD) (t : Fin cfg0.N) :
    (dat0 V c).flushed 5 t = ((cfg0.win 5).blk t).view.read (Elt Ideal)
      (msg (V c main_v10) (V c main_arg2) (V c main_v11) (V c main_v12) (V c main_v13)) := by
  obtain ⟨-, -, -, -, -, -, -, -, -, -, e0, e1⟩ := idx_facts t
  show (cfg0.win 5).cut (grid0.coords t) ((dat0 V c).after 5 t) = _
  rw [after0_5]
  unfold out0_5
  rw [View.canon_unit_zero hz]
  simp only [View.ld_unit_zero (S := S8000x128) hz, View.ld_unit_zero (S := S8000x32) hz, View.ld_unit_zero (S := S128x128) hz,
    View.ld_unit_zero (S := S32x128) hz, View.ld_unit_zero (S := S1x128) hz]
  funext j
  obtain ⟨p, q, rfl⟩ : ∃ (p : Fin 8000) (q : Fin 128), j = ix2 p q := ⟨j 0, j 1, eq_ix2 j⟩
  rw [View.read_apply]
  refine stored_at V c t p q _ _ ?_ ?_
  · show win0_5.index t 0 * 8000 + 1 * p.val = 8000 * t.val + p.val; rw [e0]; omega
  · show win0_5.index t 1 * 128 + 1 * q.val = q.val; rw [e1]; omega

/-- An index of the message array is in point t's block iff each coordinate is in the block's range on its axis. -/
theorem mem_blk (t : Fin cfg0.N) (i : S1600000x128.Idx) :
    i ∈ ((cfg0.win 5).blk t).view.set ↔ ∀ a : Fin 2, win0_5.index t a * S8000x128.size a ≤ (i a).val
      ∧ (i a).val < win0_5.index t a * S8000x128.size a + S8000x128.size a := by
  show i ∈ ((View.whole main_v14).slice (win0_5.rect t)).set ↔ _
  rw [View.set_slice_whole, Rect.mem_set_unit]
  exact Iff.rfl

/-- THE MESSAGE ARRAY after the region: the message function of the five arrays as the region finds them. Row r lies in
    the block of point r / 8000, and the two hundred blocks tile the 1600000 rows. -/
theorem final (c : Dev nD) : (dat0 V c).arrAt 5 cfg0.N
    = msg (V c main_v10) (V c main_arg2) (V c main_v11) (V c main_v12) (V c main_v13) :=
  (dat0 V c).arrAt_eq_of_cover 5 _ (fun t _ => flushed_eq V c t) (fun i => by
    have hi0 : (i 0).val < 1600000 := (i 0).isLt
    have hi1 : (i 1).val < 128 := (i 1).isLt
    have hN : cfg0.N = 200 := N_0
    have hlt : (i 0).val / 8000 < cfg0.N := by rw [hN]; omega
    obtain ⟨-, -, -, -, -, -, -, -, -, -, e0, e1⟩ := idx_facts ⟨(i 0).val / 8000, hlt⟩
    refine ⟨⟨(i 0).val / 8000, hlt⟩, flush0_5 _, ?_⟩
    rw [mem_blk]
    intro a
    match a with
    | ⟨0, _⟩ =>
      show win0_5.index ⟨(i 0).val / 8000, hlt⟩ 0 * 8000 ≤ (i 0).val ∧ (i 0).val < win0_5.index ⟨(i 0).val / 8000, hlt⟩ 0 * 8000 + 8000
      rw [e0]; show (i 0).val / 8000 * 8000 ≤ (i 0).val ∧ (i 0).val < (i 0).val / 8000 * 8000 + 8000; omega
    | ⟨1, _⟩ =>
      show win0_5.index ⟨(i 0).val / 8000, hlt⟩ 1 * 128 ≤ (i 1).val ∧ (i 1).val < win0_5.index ⟨(i 0).val / 8000, hlt⟩ 1 * 128 + 128
      rw [e1]; omega)

end Cert.KernelIdeal.EdgeMessage

end
-- ==== Proof.NodeUpdate.lean ====
import proofs.«106508_j35373350650219_1_alg».proof.Proof.Gen.KernelIdeal.Frame
import proofs.«106508_j35373350650219_1_alg».proof.Proof.LibPlainDot
import Idealize.ShloMosaic.Lib.Pipeline.Value
import Idealize.ShloMosaic.Lib.ValueIdx
import Idealize.ShloMosaic.PureOps.Ideal.Laws

/-!
  The node-update region of the idealized kernel, read as a value. Its grid has 20 points; point t stages rows
  5000 t … 5000 t + 4999 of the node features x and of the aggregated messages, and the whole of the self weight and
  of the bias row. At the ideal instance the narrowing casts are identities and a matrix product into a zero
  accumulator is the plain sum of products, so the block the body stores has at (p, q) the maximum of zero and
  (the sum over k < 128 of x(p, k) · W(k, q)) + b(0, q) + agg(p, q). The 20 blocks tile the 100000 rows, so the result
  array after the region is that function of the four staged arrays.
-/

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.NodeUpdate

open Cert.KernelIdeal Cert.KernelIdeal.Gen

theorem hz : (![0, 0] : Fin 2 → Nat) = fun _ => 0 := funext fun a => by fin_cases a <;> rfl

/-- One entry of the node update: row p of x against column q of the weight, plus the bias entry q, plus the
    aggregated message at (p, q), clipped below at zero. -/
def updAt (x : S100000x128.Idx → EReal) (agg : S100000x128.Idx → EReal) (w : S128x128.Idx → EReal) (b : S1x128.Idx → EReal)
    (p : Fin 100000) (q : Fin 128) : EReal :=
  max (((∑ k : Fin 128, x (ix2 p k) * w (ix2 k q)) + b (ix2 0 q)) + agg (ix2 p q)) (Ideal.ofBits .f32 0x00000000#32)

/-- The node update as one function of the four arrays the region's windows stage. -/
def upd (x : S100000x128.Idx → EReal) (agg : S100000x128.Idx → EReal) (w : S128x128.Idx → EReal) (b : S1x128.Idx → EReal) :
    S100000x128.Idx → EReal := fun i => updAt x agg w b (i 0) (i 1)

/-- The body's stored value at entry (p, q) of a block. -/
theorem pay_apply (x : Vec Ideal S5000x128 .f32) (w : Vec Ideal S128x128 .f32) (b : Vec Ideal S1x128 .f32) (g : Vec Ideal S5000x128 .f32)
    (p : Fin 5000) (q : Fin 128) :
    k1_pay1 x w b g (ix2 p q)
      = max (((∑ k : Fin 128, x (ix2 p k) * w (ix2 k q)) + b (ix2 0 q)) + g (ix2 p q)) (Ideal.ofBits .f32 0x00000000#32) := by
  unfold k1_pay1
  rw [maximumf_apply, addf_apply, addf_apply, shapeCast_self, shapeCast_self, broadcast_apply]
  have hmm := Cert.Lib.PlainDot.matmul_zero_apply dot_S5000x128_S128x128_S5000x128_1_0_0_1_n_n rfl rfl rfl rfl rfl rfl none
    (truncf FTy.bf16 x bitsLt_bf16_f32 : FVec Ideal S5000x128 .bf16) (truncf FTy.bf16 w bitsLt_bf16_f32 : FVec Ideal S128x128 .bf16) p q
  have hb : broadcastTo S5000x128 b broadcasts_S1x128_S5000x128 (ix2 p q) = b (ix2 0 q) :=
    broadcastTo_apply b broadcasts_S1x128_S5000x128 (ix2 p q) (ix2 0 q) (fun a => match a with
      | ⟨0, _⟩ => by show 0 = if (1 : Nat) = 1 then 0 else _; rw [if_pos rfl]
      | ⟨1, _⟩ => by show q.val = if (128 : Nat) = 1 then 0 else q.val; rw [if_neg (by decide)])
  rw [hb]
  refine congrArg (fun z => max ((z + b (ix2 0 q)) + g (ix2 p q)) _) ?_
  exact hmm

variable (V : (c : Dev nD) → (b : Ref sig .tc) → Buf (Elt Ideal) ((c : Thread nD τ).loc b))

/-- The printed index maps over the grid of 20 points: the row windows sit at block t, the weight and the bias at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row block t of x: entry y of the block is entry (5000 t + y₀, y₁) of the array. -/
theorem blk_x (c : Dev nD) (t : Fin cfg1.N) (y : S5000x128.Idx) (i : S100000x128.Idx)
    (h0 : (i 0).val = 5000 * t.val + (y 0).val) (h1 : (i 1).val = (y 1).val) :
    (iblk1 V c 0 t : Vec Ideal S5000x128 .f32) y = (V c main_arg0 : S100000x128.Idx → EReal) i := by
  obtain ⟨e0, e1, -⟩ := idx_facts t
  unfold iblk1
  rw [View.read_apply]
  show V c main_arg0 _ = V c main_arg0 _
  congr 1
  funext a
  apply Fin.ext
  match a with
  | ⟨0, _⟩ => show win1_0.index t 0 * 5000 + 1 * (y 0).val = (i 0).val; rw [e0, h0]; omega
  | ⟨1, _⟩ => show win1_0.index t 1 * 128 + 1 * (y 1).val = (i 1).val; rw [e1, h1]; omega

/-- Row block t of the aggregated messages: entry y of the block is entry (5000 t + y₀, y₁) of the array. -/
theorem blk_agg (c : Dev nD) (t : Fin cfg1.N) (y : S5000x128.Idx) (i : S100000x128.Idx)
    (h0 : (i 0).val = 5000 * t.val + (y 0).val) (h1 : (i 1).val = (y 1).val) :
    (iblk1 V c 1 t : Vec Ideal S5000x128 .f32) y = (V c main_v17 : S100000x128.Idx → EReal) i := by
  obtain ⟨-, -, e0, e1, -⟩ := idx_facts t
  unfold iblk1
  rw [View.read_apply]
  show V c main_v17 _ = V c main_v17 _
  congr 1
  funext a
  apply Fin.ext
  match a with
  | ⟨0, _⟩ => show win1_1.index t 0 * 5000 + 1 * (y 0).val = (i 0).val; rw [e0, h0]; omega
  | ⟨1, _⟩ => show win1_1.index t 1 * 128 + 1 * (y 1).val = (i 1).val; rw [e1, h1]; omega

/-- The weight's one block is the whole weight. -/
theorem blk_w (c : Dev nD) (t : Fin cfg1.N) (y : S128x128.Idx) :
    (iblk1 V c 2 t : Vec Ideal S128x128 .f32) y = (V c main_arg3 : S128x128.Idx → EReal) y := by
  obtain ⟨-, -, -, -, e0, e1, -⟩ := idx_facts t
  unfold iblk1
  rw [View.read_apply]
  show V c main_arg3 _ = V c main_arg3 _
  congr 1
  funext a
  apply Fin.ext
  match a with
  | ⟨0, _⟩ => show win1_2.index t 0 * 128 + 1 * (y 0).val = (y 0).val; rw [e0]; omega
  | ⟨1, _⟩ => show win1_2.index t 1 * 128 + 1 * (y 1).val = (y 1).val; rw [e1]; omega

/-- The bias row's one block is the whole row. -/
theorem blk_b (c : Dev nD) (t : Fin cfg1.N) (y : S1x128.Idx) :
    (iblk1 V c 3 t : Vec Ideal S1x128 .f32) y = (V c main_v18 : S1x128.Idx → EReal) y := by
  obtain ⟨-, -, -, -, -, -, e0, e1, -⟩ := idx_facts t
  unfold iblk1
  rw [View.read_apply]
  show V c main_v18 _ = V c main_v18 _
  congr 1
  funext a
  apply Fin.ext
  match a with
  | ⟨0, _⟩ => show win1_3.index t 0 * 1 + 1 * (y 0).val = (y 0).val; rw [e0]; omega
  | ⟨1, _⟩ => show win1_3.index t 1 * 128 + 1 * (y 1).val = (y 1).val; rw [e1]; omega

/-- What point t stores at entry (p, q) of its block is the update's entry (5000 t + p, q). -/
theorem stored_at (c : Dev nD) (t : Fin cfg1.N) (p : Fin 5000) (q : Fin 128) (P : Fin 100000) (Q : Fin 128)
    (hP : P.val = 5000 * t.val + p.val) (hQ : Q.val = q.val) :
    k1_pay1 (iblk1 V c 0 t) (iblk1 V c 2 t) (iblk1 V c 3 t) (iblk1 V c 1 t) (ix2 p q)
      = updAt (V c main_arg0) (V c main_v17) (V c main_arg3) (V c main_v18) P Q := by
  obtain rfl : Q = q := Fin.ext hQ
  refine (pay_apply _ _ _ _ p Q).trans ?_
  unfold updAt
  rw [blk_b V c t (ix2 0 Q), blk_agg V c t (ix2 p Q) (ix2 P Q) hP rfl]
  refine congrArg (fun z => max ((z + _) + _) _) ?_
  refine Finset.sum_congr rfl fun k _ => ?_
  rw [blk_x V c t (ix2 p k) (ix2 P k) hP rfl, blk_w V c t (ix2 k Q)]

/-- WHAT POINT t WRITES BACK is block t of the update of the four arrays as the region finds them. -/
theorem flushed_eq (c : Dev nD) (t : Fin cfg1.N) :
    (dat1 V c).flushed 4 t = ((cfg1.win 4).blk t).view.read (Elt Ideal)
      (upd (V c main_arg0) (V c main_v17) (V c main_arg3) (V c main_v18)) := by
  obtain ⟨-, -, -, -, -, -, -, -, e0, e1⟩ := idx_facts t
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  rw [View.read_apply]
  refine stored_at V c t p q _ _ ?_ ?_
  · show win1_4.index t 0 * 5000 + 1 * p.val = 5000 * t.val + p.val; rw [e0]; omega
  · show win1_4.index t 1 * 128 + 1 * q.val = q.val; rw [e1]; omega

/-- An index of the result array is in point t's block iff each coordinate is in the block's range on its axis. -/
theorem mem_blk (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v19).slice (win1_4.rect t)).set ↔ _
  rw [View.set_slice_whole, Rect.mem_set_unit]
  exact Iff.rfl

/-- THE RESULT ARRAY after the region: the update of the four arrays as the region finds them. Row r lies in the block
    of point r / 5000, and the twenty blocks tile the 100000 rows. -/
theorem final (c : Dev nD) : (dat1 V c).arrAt 4 cfg1.N
    = upd (V c main_arg0) (V c main_v17) (V c main_arg3) (V c main_v18) :=
  (dat1 V c).arrAt_eq_of_cover 4 _ (fun t _ => flushed_eq V c t) (fun i => by
    have hi0 : (i 0).val < 100000 := (i 0).isLt
    have hi1 : (i 1).val < 128 := (i 1).isLt
    have hN : cfg1.N = 20 := N_1
    have hlt : (i 0).val / 5000 < cfg1.N := by rw [hN]; omega
    obtain ⟨-, -, -, -, -, -, -, -, e0, e1⟩ := idx_facts ⟨(i 0).val / 5000, hlt⟩
    refine ⟨⟨(i 0).val / 5000, hlt⟩, flush1_4 _, ?_⟩
    rw [mem_blk]
    intro a
    match a with
    | ⟨0, _⟩ =>
      show win1_4.index ⟨(i 0).val / 5000, hlt⟩ 0 * 5000 ≤ (i 0).val ∧ (i 0).val < win1_4.index ⟨(i 0).val / 5000, hlt⟩ 0 * 5000 + 5000
      rw [e0]; show (i 0).val / 5000 * 5000 ≤ (i 0).val ∧ (i 0).val < (i 0).val / 5000 * 5000 + 5000; omega
    | ⟨1, _⟩ =>
      show win1_4.index ⟨(i 0).val / 5000, hlt⟩ 1 * 128 ≤ (i 1).val ∧ (i 1).val < win1_4.index ⟨(i 0).val / 5000, hlt⟩ 1 * 128 + 128
      rw [e1]; omega)

end Cert.KernelIdeal.NodeUpdate

end
-- ==== Proof.HostSide.lean ====
import proofs.«106508_j35373350650219_1_alg».proof.Proof.Gen.KernelIdeal.Frame
import Idealize.ShloMosaic.Lib.StableHlo.Run
import Idealize.ShloMosaic.PureOps.Ideal

/-!
  The host operations of the idealized kernel's @main, read as values: what each buffer a region stages holds when
  the region is entered, as a function of the contents before the stretch. The first stretch (before the
  edge-message region) cuts the edge list into its source and destination rows, gathers the source rows of x, cuts
  the message weight into its first 128 and last 32 rows and turns the message bias into a one-row matrix. The second
  stretch (before the node-update region) scatter-adds the message array into a zero array at the destination rows
  and turns the self bias into a one-row matrix. Each lemma is stated for any contents before the stretch.
-/

set_option maxRecDepth 16384

noncomputable section

open Idealize.ShloMosaic Idealize.ShloMosaic.TcCoe Idealize.SL.Sem Idealize.ShloMosaic.StableHlo

namespace Cert.KernelIdeal.HostSide

open Cert.KernelIdeal Cert.KernelIdeal.Gen

/-- The source row of every edge as a column of start indices: row 0 of the edge list, a negative entry moved up by
    the number of nodes. -/
def srcIdx (ei : (⟨S2x1600000, .i32⟩ : BufTy).Contents (Elt Ideal)) : (⟨S1600000x1, .i32⟩ : BufTy).Contents (Elt Ideal) :=
  broadcastInDim S1600000x1 ![0] bcast_S1600000_S1600000x1_0
    (select (cmpi .slt (shapeCast _ (extractStridedSlice S1x1600000 ![0, 0] ei slices_S2x1600000_S1x1600000_0_0) shapeCasts_S1x1600000_S1600000)
        (broadcastInDim S1600000 ![] bcast_S_S1600000 (constantI S_ 32 0#32)))
      (addi (shapeCast _ (extractStridedSlice S1x1600000 ![0, 0] ei slices_S2x1600000_S1x1600000_0_0) shapeCasts_S1x1600000_S1600000)
        (broadcastInDim S1600000 ![] bcast_S_S1600000 (constantI S_ 32 100000#32)))
      (shapeCast _ (extractStridedSlice S1x1600000 ![0, 0] ei slices_S2x1600000_S1x1600000_0_0) shapeCasts_S1x1600000_S1600000))

/-- The destination row of every edge: row 1 of the edge list, as a vector. -/
def dstRow (ei : (⟨S2x1600000, .i32⟩ : BufTy).Contents (Elt Ideal)) : (⟨S1600000, .i32⟩ : BufTy).Contents (Elt Ideal) :=
  shapeCast _ (extractStridedSlice S1x1600000 ![1, 0] ei slices_S2x1600000_S1x1600000_1_0) shapeCasts_S1x1600000_S1600000

/-- The gathered source rows of x. -/
def gathered (x : (⟨S100000x128, .f32⟩ : BufTy).Contents (Elt Ideal)) (ei : (⟨S2x1600000, .i32⟩ : BufTy).Contents (Elt Ideal)) :
    (⟨S1600000x128, .f32⟩ : BufTy).Contents (Elt Ideal) :=
  Host.gather gather_S100000x128_S1600000x1_S1600000x128_1_0_n_n_0_1_1128 x (srcIdx ei)

/-- A message array scatter-added into the zero array at the destination rows. -/
def aggregated (ei : (⟨S2x1600000, .i32⟩ : BufTy).Contents (Elt Ideal)) (u : (⟨S1600000x128, .f32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (dstRow ei)) u

section Stretch0
variable (W : Valuation τ sig (Elt Ideal))

/-- After the first stretch the gathered buffer holds the gathered source rows of x. -/
theorem s0_v10 : StableHlo.after hostOps0 W (Proc.devRef .tc main_v10)
    = gathered (W (Proc.devRef .tc main_arg0)) (W (Proc.devRef .tc main_arg1)) := by
  dsimp only [hostOps0]
  after_results
  rfl

/-- After the first stretch the destination-row buffer holds row 1 of the edge list. -/
theorem s0_v3 : StableHlo.after hostOps0 W (Proc.devRef .tc main_v3) = dstRow (W (Proc.devRef .tc main_arg1)) := by
  dsimp only [hostOps0]
  after_results
  rfl

/-- After the first stretch the first weight piece is rows 0 … 127 of the message weight. -/
theorem s0_v11 : StableHlo.after hostOps0 W (Proc.devRef .tc main_v11)
    = extractStridedSlice S128x128 ![0, 0] (W (Proc.devRef .tc main_arg5)) slices_S160x128_S128x128_0_0 := by
  dsimp only [hostOps0]
  after_results

/-- After the first stretch the second weight piece is rows 128 … 159 of the message weight. -/
theorem s0_v12 : StableHlo.after hostOps0 W (Proc.devRef .tc main_v12)
    = extractStridedSlice S32x128 ![128, 0] (W (Proc.devRef .tc main_arg5)) slices_S160x128_S32x128_128_0 := by
  dsimp only [hostOps0]
  after_results

/-- After the first stretch the bias row is the message bias as a one-row matrix. -/
theorem s0_v13 : StableHlo.after hostOps0 W (Proc.devRef .tc main_v13)
    = (shapeCast S1x128 (W (Proc.devRef .tc main_arg6)) shapeCasts_S128_S1x128 : (⟨S1x128, .f32⟩ : BufTy).Contents (Elt Ideal)) := by
  dsimp only [hostOps0]
  after_results
  rfl

/-- The first stretch writes none of the arguments. -/
theorem s0_arg0 : StableHlo.after hostOps0 W (Proc.devRef .tc main_arg0) = W (Proc.devRef .tc main_arg0) := by
  dsimp only [hostOps0]; after_results
theorem s0_arg2 : StableHlo.after hostOps0 W (Proc.devRef .tc main_arg2) = W (Proc.devRef .tc main_arg2) := by
  dsimp only [hostOps0]; after_results
theorem s0_arg3 : StableHlo.after hostOps0 W (Proc.devRef .tc main_arg3) = W (Proc.devRef .tc main_arg3) := by
  dsimp only [hostOps0]; after_results
theorem s0_arg4 : StableHlo.after hostOps0 W (Proc.devRef .tc main_arg4) = W (Proc.devRef .tc main_arg4) := by
  dsimp only [hostOps0]; after_results

end Stretch0

section Stretch1
variable (W : Valuation τ sig (Elt Ideal))

/-- After the second stretch the aggregate buffer holds the message array scatter-added into zero at the destination
    rows the first stretch left. -/
theorem s1_v17 : StableHlo.after hostOps1 W (Proc.devRef .tc main_v17)
    = Host.scatterAdd (F := Ideal) scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 (W (Proc.devRef .tc main_v3)))
        (W (Proc.devRef .tc main_v14)) := by
  dsimp only [hostOps1]
  after_results

/-- After the second stretch the bias row is the self bias as a one-row matrix. -/
theorem s1_v18 : StableHlo.after hostOps1 W (Proc.devRef .tc main_v18)
    = (shapeCast S1x128 (W (Proc.devRef .tc main_arg4)) shapeCasts_S128_S1x128 : (⟨S1x128, .f32⟩ : BufTy).Contents (Elt Ideal)) := by
  dsimp only [hostOps1]
  after_results
  rfl

/-- The second stretch writes neither x nor the self weight. -/
theorem s1_arg0 : StableHlo.after hostOps1 W (Proc.devRef .tc main_arg0) = W (Proc.devRef .tc main_arg0) := by
  dsimp only [hostOps1]; after_results
theorem s1_arg3 : StableHlo.after hostOps1 W (Proc.devRef .tc main_arg3) = W (Proc.devRef .tc main_arg3) := by
  dsimp only [hostOps1]; after_results

end Stretch1

end Cert.KernelIdeal.HostSide

end
-- ==== Proof.Spec.lean ====
import proofs.«106508_j35373350650219_1_alg».proof.Proof.EdgeMessage
import proofs.«106508_j35373350650219_1_alg».proof.Proof.NodeUpdate
import proofs.«106508_j35373350650219_1_alg».proof.Proof.HostSide

/-!
  What the program computes, as one function of its seven argument arrays: gather the source rows of x; the message
  of edge e is (gathered row) · W[0:128] + (edge attribute row) · W[128:160] + b; the aggregate of node n is the sum
  of the messages of the edges whose destination is n (the host's scatter-add into zero); the result row is the
  maximum of zero and x · W_self + b_self + aggregate.
-/

noncomputable section

open Idealize.ShloMosaic

namespace Cert.KernelIdeal.Spec

open Cert.KernelIdeal Cert.KernelIdeal.Gen Cert.KernelIdeal.HostSide

/-- The message array from the arguments. -/
def messages (x : (⟨S100000x128, .f32⟩ : BufTy).Contents (Elt Ideal)) (ei : (⟨S2x1600000, .i32⟩ : BufTy).Contents (Elt Ideal))
    (ea : (⟨S1600000x32, .f32⟩ : BufTy).Contents (Elt Ideal)) (wm : (⟨S160x128, .f32⟩ : BufTy).Contents (Elt Ideal))
    (bm : (⟨S128, .f32⟩ : BufTy).Contents (Elt Ideal)) : (⟨S1600000x128, .f32⟩ : BufTy).Contents (Elt Ideal) :=
  EdgeMessage.msg (gathered x ei) ea
    (extractStridedSlice S128x128 ![0, 0] wm slices_S160x128_S128x128_0_0)
    (extractStridedSlice S32x128 ![128, 0] wm slices_S160x128_S32x128_128_0)
    (shapeCast S1x128 bm shapeCasts_S128_S1x128)

/-- The result array from the arguments. -/
def result (x : (⟨S100000x128, .f32⟩ : BufTy).Contents (Elt Ideal)) (ei : (⟨S2x1600000, .i32⟩ : BufTy).Contents (Elt Ideal))
    (ea : (⟨S1600000x32, .f32⟩ : BufTy).Contents (Elt Ideal)) (ws : (⟨S128x128, .f32⟩ : BufTy).Contents (Elt Ideal))
    (bs : (⟨S128, .f32⟩ : BufTy).Contents (Elt Ideal)) (wm : (⟨S160x128, .f32⟩ : BufTy).Contents (Elt Ideal))
    (bm : (⟨S128, .f32⟩ : BufTy).Contents (Elt Ideal)) : (⟨S100000x128, .f32⟩ : BufTy).Contents (Elt Ideal) :=
  NodeUpdate.upd x (aggregated ei (messages x ei ea wm bm)) ws (shapeCast S1x128 bs shapeCasts_S128_S1x128)

end Cert.KernelIdeal.Spec

end
-- ==== Proof.KernelValue.lean ====
import proofs.«106508_j35373350650219_1_alg».proof.Proof.KernelRun
import proofs.«106508_j35373350650219_1_alg».proof.Proof.Spec

/-!
  The idealized kernel's run with its result named as a function of the arguments. The last boundary of @main holds at
  the result buffer what the node-update region's write-backs leave; that is the node update of the arrays the
  region finds, which the second host stretch computed from the message array the edge-message region left, which in
  turn is the message function of the arrays the first host stretch computed from the launch memory.
-/

set_option maxRecDepth 16384

noncomputable section

open Idealize.ShloMosaic Idealize.ShloMosaic.TcCoe Idealize.SL.Sem Idealize.ShloMosaic.StableHlo
open Idealize.ShloMosaic.Pipeline (Dat)

namespace Cert.KernelIdeal.KernelValue

open Cert.KernelIdeal Cert.KernelIdeal.Gen Cert.KernelIdeal.HostSide

variable (m : (ℓ : Loc nD τ sig) → Buf (Elt Ideal) ℓ) (ρ : Dev nD → PrngReg)

/-! ## Entering the edge-message region -/

theorem V1_v10 (c : Dev nD) : V1 m ρ c main_v10
    = gathered (m ((c : Thread nD τ).loc main_arg0)) (m ((c : Thread nD τ).loc main_arg1)) := s0_v10 (W0 m ρ c)
theorem V1_arg2 (c : Dev nD) : V1 m ρ c main_arg2 = m ((c : Thread nD τ).loc main_arg2) := s0_arg2 (W0 m ρ c)
theorem V1_v11 (c : Dev nD) : V1 m ρ c main_v11
    = extractStridedSlice S128x128 ![0, 0] (m ((c : Thread nD τ).loc main_arg5)) slices_S160x128_S128x128_0_0 := s0_v11 (W0 m ρ c)
theorem V1_v12 (c : Dev nD) : V1 m ρ c main_v12
    = extractStridedSlice S32x128 ![128, 0] (m ((c : Thread nD τ).loc main_arg5)) slices_S160x128_S32x128_128_0 := s0_v12 (W0 m ρ c)
theorem V1_v13 (c : Dev nD) : V1 m ρ c main_v13
    = shapeCast S1x128 (m ((c : Thread nD τ).loc main_arg6)) shapeCasts_S128_S1x128 := s0_v13 (W0 m ρ c)

/-- The message array the edge-message region leaves. -/
theorem W2_v14 (c : Dev nD) : W2 m ρ c (Proc.devRef .tc main_v14)
    = Spec.messages (m ((c : Thread nD τ).loc main_arg0)) (m ((c : Thread nD τ).loc main_arg1)) (m ((c : Thread nD τ).loc main_arg2))
        (m ((c : Thread nD τ).loc main_arg5)) (m ((c : Thread nD τ).loc main_arg6)) := by
  refine (W2_arr m ρ c 5).trans ?_
  rw [EdgeMessage.final (V1 m ρ) c, V1_v10, V1_arg2, V1_v11, V1_v12, V1_v13]
  rfl

/-! ## Between the regions: buffers the edge-message region does not write -/

theorem W2_v3 (c : Dev nD) : W2 m ρ c (Proc.devRef .tc main_v3) = dstRow (m ((c : Thread nD τ).loc main_arg1)) :=
  (W2_of_ne m ρ c main_v3 (by decide)).trans (s0_v3 (W0 m ρ c))
theorem W2_arg0 (c : Dev nD) : W2 m ρ c (Proc.devRef .tc main_arg0) = m ((c : Thread nD τ).loc main_arg0) :=
  (W2_of_ne m ρ c main_arg0 (by decide)).trans (s0_arg0 (W0 m ρ c))
theorem W2_arg3 (c : Dev nD) : W2 m ρ c (Proc.devRef .tc main_arg3) = m ((c : Thread nD τ).loc main_arg3) :=
  (W2_of_ne m ρ c main_arg3 (by decide)).trans (s0_arg3 (W0 m ρ c))
theorem W2_arg4 (c : Dev nD) : W2 m ρ c (Proc.devRef .tc main_arg4) = m ((c : Thread nD τ).loc main_arg4) :=
  (W2_of_ne m ρ c main_arg4 (by decide)).trans (s0_arg4 (W0 m ρ c))

/-! ## Entering the node-update region -/

theorem V3_arg0 (c : Dev nD) : V3 m ρ c main_arg0 = m ((c : Thread nD τ).loc main_arg0) :=
  (s1_arg0 (W2 m ρ c)).trans (W2_arg0 m ρ c)
theorem V3_arg3 (c : Dev nD) : V3 m ρ c main_arg3 = m ((c : Thread nD τ).loc main_arg3) :=
  (s1_arg3 (W2 m ρ c)).trans (W2_arg3 m ρ c)
theorem V3_v18 (c : Dev nD) : V3 m ρ c main_v18
    = shapeCast S1x128 (m ((c : Thread nD τ).loc main_arg4)) shapeCasts_S128_S1x128 := by
  refine (s1_v18 (W2 m ρ c)).trans ?_
  rw [W2_arg4]
theorem V3_v17 (c : Dev nD) : V3 m ρ c main_v17
    = aggregated (m ((c : Thread nD τ).loc main_arg1))
        (Spec.messages (m ((c : Thread nD τ).loc main_arg0)) (m ((c : Thread nD τ).loc main_arg1)) (m ((c : Thread nD τ).loc main_arg2))
          (m ((c : Thread nD τ).loc main_arg5)) (m ((c : Thread nD τ).loc main_arg6))) := by
  refine (s1_v17 (W2 m ρ c)).trans ?_
  rw [W2_v3, W2_v14]
  rfl

/-- THE RESULT: what the last boundary holds at the result buffer is the program's function of the launch memory's
    seven arguments. -/
theorem result_eq (c : Dev nD) : W4 m ρ c (Proc.devRef .tc main_v19)
    = Spec.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (W4_arr m ρ c 4).trans ?_
  rw [NodeUpdate.final (V3 m ρ) c, V3_arg0, V3_arg3, V3_v18, V3_v17]
  rfl

/-- The run, read: the result array at the program's function of the arguments, the arguments unchanged. -/
theorem run : θ_run defs (onTc (τ := τ) (main (F := Ideal))) ⟨m, fun _ => 0, ρ⟩ (fun r => ∀ c : Dev nD,
      r.2.mem ((c.tc : Thread nD τ).loc main_v19)
        = Spec.result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (GenRun.run_named m ρ)

end Cert.KernelIdeal.KernelValue

end
-- ==== Proof.Bridge.lean ====
import proofs.«106508_j35373350650219_1_alg».proof.Proof.Gen.ReferenceIdeal.Read
import proofs.«106508_j35373350650219_1_alg».proof.Proof.Spec
import Idealize.ShloMosaic.Lib.Pipeline.Value
import Idealize.ShloMosaic.Lib.ValueIdx

/-!
  The reference computes the same function. Its message of edge e is (the gathered row joined with the edge attribute
  row, width 160) · W + b: the sum over k < 160 splits at 128 into the sum over the gathered row against rows 0 … 127
  of W and the sum over the attribute row against rows 128 … 159 of W, which are the kernel's two products against the
  two weight pieces. The split only regroups a finite sum, so it holds for all extended reals. The gather, the
  scatter-add and the clip at zero are the same operations on both sides, and the reference's bias, broadcast from a
  vector, reads the entry the kernel's one-row matrix holds.
-/

set_option maxRecDepth 16384

noncomputable section

open scoped BigOperators
open Idealize.ShloMosaic Idealize.ShloMosaic.ValueIdx

namespace Cert.Bridge

open Cert.KernelIdeal Cert.KernelIdeal.Gen Cert.KernelIdeal.HostSide

/-- A sum over 160 terms is the sum of the first 128 plus the sum of the last 32, in any commutative monoid. -/
theorem sum_split {M : Type} [AddCommMonoid M] (f : Fin 160 → M) :
    ∑ k, f k = (∑ k : Fin 128, f ⟨k.val, by omega⟩) + ∑ k : Fin 32, f ⟨128 + k.val, by omega⟩ :=
  Fin.sum_univ_add (a := 128) (b := 32) f

variable (x0 : (⟨S100000x128, .f32⟩ : BufTy).Contents (Elt Ideal)) (x1 : (⟨S2x1600000, .i32⟩ : BufTy).Contents (Elt Ideal))
  (x2 : (⟨S1600000x32, .f32⟩ : BufTy).Contents (Elt Ideal)) (x3 : (⟨S128x128, .f32⟩ : BufTy).Contents (Elt Ideal))
  (x4 : (⟨S128, .f32⟩ : BufTy).Contents (Elt Ideal)) (x5 : (⟨S160x128, .f32⟩ : BufTy).Contents (Elt Ideal))
  (x6 : (⟨S128, .f32⟩ : BufTy).Contents (Elt Ideal))

/-- The reference's gathered rows are the kernel program's. -/
theorem ref_gathered : ReferenceIdeal.Read.val_main_v10 (F := Ideal) x0 x1 = gathered x0 x1 := rfl

/-- A bias vector's entry Q is the entry (0, Q) of the vector as a one-row matrix. -/
theorem row_of_vec (b : (⟨S128, .f32⟩ : BufTy).Contents (Elt Ideal)) (Q : Fin 128) :
    shapeCast S1x128 b shapeCasts_S128_S1x128 (ix2 0 Q) = b (ix1 Q) :=
  shapeCast_apply b shapeCasts_S128_S1x128 (ix2 0 Q) (ix1 Q)
    (by rewrite [Shape.rowMajor_val_one, Shape.rowMajor_val_two]; show Q.val = 0 * 128 + Q.val; omega)

/-- The reference's message array is the kernel program's message function of the arguments. -/
theorem ref_messages : ReferenceIdeal.Read.val_main_v15 (F := Ideal) x0 x1 x2 x5 x6 = Spec.messages x0 x1 x2 x5 x6 := by
  funext i
  obtain ⟨P, Q, rfl⟩ : ∃ (P : Fin 1600000) (Q : Fin 128), i = ix2 P Q := ⟨i 0, i 1, eq_ix2 i⟩
  rw [ReferenceIdeal.Read.val_main_v15_apply, ReferenceIdeal.Read.val_main_v12_apply, ReferenceIdeal.Read.val_main_v14_apply,
    ReferenceIdeal.Read.val_main_v13_apply]
  show (∑ k : Fin 160, ReferenceIdeal.Read.val_main_v11 (F := Ideal) x0 x1 x2 (ReferenceIdeal.Read.lidx_main_v12 (ix2 P Q) k)
        * x5 (ReferenceIdeal.Read.ridx_main_v12 (ix2 P Q) k))
      + x6 (ReferenceIdeal.Read.idx_main_v13 (ReferenceIdeal.Read.idx_main_v14 (ix2 P Q)))
    = EdgeMessage.msgAt (gathered x0 x1) x2 (extractStridedSlice S128x128 ![0, 0] x5 slices_S160x128_S128x128_0_0)
        (extractStridedSlice S32x128 ![128, 0] x5 slices_S160x128_S32x128_128_0) (shapeCast S1x128 x6 shapeCasts_S128_S1x128) P Q
  unfold EdgeMessage.msgAt
  rw [sum_split]
  refine congrArg₂ (· + ·) (congrArg₂ (· + ·) ?_ ?_) ?_
  · -- the first 128 terms: the gathered row against rows 0 … 127 of the weight
    refine Finset.sum_congr rfl fun k _ => congrArg₂ (· * ·) ?_ ?_
    · unfold ReferenceIdeal.Read.val_main_v11
      rw [ref_gathered]
      refine concatenate_pair_apply_left (t := ReferenceIdeal.S1600000x160) (s₁ := ReferenceIdeal.S1600000x128) (s₂ := ReferenceIdeal.S1600000x32)
        1 _ _ _ _ rfl (ix2 P k) (fun b => ?_)
      match b with
      | ⟨0, _⟩ => rfl
      | ⟨1, _⟩ => rfl
    · exact (extractStridedSlice_apply ![0, 0] x5 slices_S160x128_S128x128_0_0 (ix2 k Q) _ (fun a => match a with
        | ⟨0, _⟩ => by show k.val = 0 + k.val; omega
        | ⟨1, _⟩ => by show Q.val = 0 + Q.val; omega)).symm
  · -- the last 32 terms: the attribute row against rows 128 … 159 of the weight
    refine Finset.sum_congr rfl fun k _ => congrArg₂ (· * ·) ?_ ?_
    · unfold ReferenceIdeal.Read.val_main_v11
      refine concatenate_pair_apply_right (t := ReferenceIdeal.S1600000x160) (s₁ := ReferenceIdeal.S1600000x128) (s₂ := ReferenceIdeal.S1600000x32)
        1 _ _ _ _ rfl rfl (ix2 P k) (fun b hb => ?_) ?_
      · match b with
        | ⟨0, _⟩ => rfl
        | ⟨1, _⟩ => exact absurd rfl hb
      · show k.val + 128 = 128 + k.val; omega
    · exact (extractStridedSlice_apply ![128, 0] x5 slices_S160x128_S32x128_128_0 (ix2 k Q) _ (fun a => match a with
        | ⟨0, _⟩ => by show 128 + k.val = 128 + k.val; rfl
        | ⟨1, _⟩ => by show Q.val = 0 + Q.val; omega)).symm
  · -- the bias entry
    have hi : ReferenceIdeal.Read.idx_main_v13 (ReferenceIdeal.Read.idx_main_v14 (ix2 P Q)) = ix1 Q :=
      funext fun a => match a with | ⟨0, _⟩ => rfl
    rw [hi]
    exact (row_of_vec x6 Q).symm

/-- The reference's aggregate is the kernel program's scatter-add of the same message array at the same rows. -/
theorem ref_aggregated : ReferenceIdeal.Read.val_main_v18 (F := Ideal) x0 x1 x2 x5 x6
    = aggregated x1 (Spec.messages x0 x1 x2 x5 x6) := by
  unfold ReferenceIdeal.Read.val_main_v18
  rw [ref_messages]
  rfl

/-- THE REFERENCE'S RESULT is the kernel program's function of the arguments. -/
theorem ref_result : ReferenceIdeal.Read.val_main_v24 (F := Ideal) x0 x1 x2 x3 x4 x5 x6 = Spec.result x0 x1 x2 x3 x4 x5 x6 := by
  funext i
  obtain ⟨p, q, rfl⟩ : ∃ (p : Fin 100000) (q : Fin 128), i = ix2 p q := ⟨i 0, i 1, eq_ix2 i⟩
  rw [ReferenceIdeal.Read.val_main_v24_apply, ReferenceIdeal.Read.val_main_v23_apply, ReferenceIdeal.Read.val_main_v22_apply,
    ReferenceIdeal.Read.val_main_v19_apply, ReferenceIdeal.Read.val_main_v21_apply, ReferenceIdeal.Read.val_main_v20_apply,
    ReferenceIdeal.Read.val_main_call0_v0_apply, ReferenceIdeal.Read.val_main_call0_cst_apply, ref_aggregated]
  show max (((∑ k : Fin 128, x0 (ReferenceIdeal.Read.lidx_main_v19 (ix2 p q) k) * x3 (ReferenceIdeal.Read.ridx_main_v19 (ix2 p q) k))
        + x4 (ReferenceIdeal.Read.idx_main_v20 (ReferenceIdeal.Read.idx_main_v21 (ix2 p q))))
        + aggregated x1 (Spec.messages x0 x1 x2 x5 x6) (ix2 p q)) (Ideal.ofBits .f32 0x00000000#32)
    = NodeUpdate.updAt x0 (aggregated x1 (Spec.messages x0 x1 x2 x5 x6)) x3 (shapeCast S1x128 x4 shapeCasts_S128_S1x128) p q
  unfold NodeUpdate.updAt
  refine congrArg₂ (fun s b => max ((s + b) + _) _) ?_ ?_
  · refine Finset.sum_congr rfl fun k _ => congrArg₂ (· * ·) (congrArg x0 ?_) (congrArg x3 ?_)
    · exact funext fun a => match a with | ⟨0, _⟩ => rfl | ⟨1, _⟩ => rfl
    · exact funext fun a => match a with | ⟨0, _⟩ => rfl | ⟨1, _⟩ => rfl
  · have hi : ReferenceIdeal.Read.idx_main_v20 (ReferenceIdeal.Read.idx_main_v21 (ix2 p q)) = ix1 q :=
      funext fun a => match a with | ⟨0, _⟩ => rfl
    rw [hi]
    exact (row_of_vec x4 q).symm

end Cert.Bridge

end
-- ==== Proof.lean ====
/- The certificate of a graph-convolution layer: gather the source rows of the node features, form each edge's message
   from the gathered row and the edge's attributes by a linear map with bias, add the messages up at their destination
   nodes, and update every node by a linear map of its features plus bias plus its aggregate, clipped below at zero.
   The kernel program computes the messages and the update in two pipelined regions, with the message weight cut into
   its rows for the gathered features and its rows for the attributes; the reference joins the two rows and multiplies
   by the whole weight. At the ideal instance the two agree entry by entry: the sum over the joined row splits at the
   joint, which only regroups a finite sum and so needs no finiteness of the inputs.
   The three frames: both kernel programs' are generated; the reference's is its generated run with the result
   dropped. The idealization rewrote nothing, so there is nothing to preserve. The value claim: the kernel program's
   run names its result as one function of the arguments (Proof/KernelValue.lean), and the reference's generated run
   ends at a term that is the same function (Proof/Bridge.lean). -/
import proofs.«106508_j35373350650219_1_alg».proof.Defs
import proofs.«106508_j35373350650219_1_alg».proof.Proof.Gen.Kernel
import proofs.«106508_j35373350650219_1_alg».proof.Proof.Gen.Kernel.Skeleton
import proofs.«106508_j35373350650219_1_alg».proof.Proof.Gen.Kernel.Launch
import proofs.«106508_j35373350650219_1_alg».proof.Proof.Gen.Kernel.Points
import proofs.«106508_j35373350650219_1_alg».proof.Proof.Gen.Kernel.Frame
import proofs.«106508_j35373350650219_1_alg».proof.Proof.Gen.KernelIdeal
import proofs.«106508_j35373350650219_1_alg».proof.Proof.Gen.KernelIdeal.Skeleton
import proofs.«106508_j35373350650219_1_alg».proof.Proof.Gen.KernelIdeal.Launch
import proofs.«106508_j35373350650219_1_alg».proof.Proof.Gen.KernelIdeal.Points
import proofs.«106508_j35373350650219_1_alg».proof.Proof.Gen.KernelIdeal.Frame
import proofs.«106508_j35373350650219_1_alg».proof.Proof.Gen.ReferenceIdeal
import proofs.«106508_j35373350650219_1_alg».proof.Proof.Gen.ReferenceIdeal.Run
import proofs.«106508_j35373350650219_1_alg».proof.Proof.Gen.ReferenceIdeal.Read
import proofs.«106508_j35373350650219_1_alg».proof.Proof.Gen.Pre_finite_inputs
import proofs.«106508_j35373350650219_1_alg».proof.Proof.KernelValue
import proofs.«106508_j35373350650219_1_alg».proof.Proof.Bridge
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- The idealized kernel program runs and keeps its arguments: the generated frame. -/
theorem frame_kernelIdeal : Cert.frame_KernelIdeal := fun m ρ _ => Cert.KernelIdeal.Gen.frame m ρ

/-- The idealized reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the same result array: the kernel
    program's run ends at the program's function of its arguments, the reference's run at a term that is the same
    function of its own, and the arguments agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v24_eq, Cert.Bridge.ref_result, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
